-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S8x2048x1024 : Shape := ⟨3, ![8, 2048, 1024]⟩
abbrev S16384 : Shape := ⟨1, ![16384]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8x2048x1024 : S_.BroadcastsInDim S8x2048x1024 (![] : Fin 0 → Fin S8x2048x1024.rank)
  reducesTo_S8x2048x1024_S_d0_1_2 : S8x2048x1024.ReducesTo [0, 1, 2] S_

variable [Facts]

def fn_part1 {F : FTy → Type} [FloatOps F] (main_v13 : IVec S_ 1) (main_v16 : IVec S8x2048x1024 1) : IVec S_ 1 :=
  let main_c_5 : IVec S_ 1 := constantI S_ 1 1#1
  let main_v17 : IVec S_ 1 := (fun x v => Host.reduce IntOp.andi x v reducesTo_S8x2048x1024_S_d0_1_2 h_S_) main_v16 main_c_5
  let main_v18 : IVec S_ 1 := andi main_v13 main_v17
  main_v18

def fn {F : FTy → Type} [FloatOps F] (main_arg0 : FVec F S16384x1024 .f32) (main_arg1 : FVec F S8x2048x1024 .f32) (main_arg2 : FVec F S8x2048x1024 .f32) (main_arg3 : FVec F S8x2048x1024 .f32) (main_arg4 : IVec S16384 32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S8x2048x1024 .f32 := Host.absf main_arg3
  let main_cst_4 : FVec F S_ .f32 := constant S_ .f32 0x7F800000#32
  let main_v15 : FVec F S8x2048x1024 .f32 := broadcastInDim S8x2048x1024 ![] bcast_S_S8x2048x1024 main_cst_4
  let main_v16 : IVec S8x2048x1024 1 := cmpf .olt main_v14 main_v15
  fn_part1 (F := F) main_v13 main_v16
-- ==== Kernel.lean ====
abbrev S16384x1024 : Shape := ⟨2, ![16384, 1024]⟩
abbrev S8x2048x1024 : Shape := ⟨3, ![8, 2048, 1024]⟩
abbrev S16384 : Shape := ⟨1, ![16384]⟩
abbrev S256x1024 : Shape := ⟨2, ![256, 1024]⟩
abbrev S1x2048x1024 : Shape := ⟨3, ![1, 2048, 1024]⟩
abbrev S2048x1024 : Shape := ⟨2, ![2048, 1024]⟩
abbrev S256x2048 : Shape := ⟨2, ![256, 2048]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S16384, .i32⟩
  | .hbm, ⟨5, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S256x1024, .f32⟩
  | .local _ .vmem, ⟨6, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .f32 = 32 ∨ (Rect.block (s := S8x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x1024.size a
  hwx0_2 : ∀ i : grid0.Coords, EltTy.bits .f32 = 32 ∨ (Rect.block (s := S8x2048x1024) S1x2048x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S8x2048x1024.size a
  hwx0_3 : ∀ i : grid0.Coords, EltTy.bits .f32 = 32 ∨ (Rect.block (s := S8x2048x1024) S1x2048x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S16384x1024.size a
  hwx0_4 : ∀ i : grid0.Coords, EltTy.bits .f32 = 32 ∨ (Rect.block (s := S16384x1024) S256x1024.size (cc0_transform_4 i) (hinb0_4 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S8x2048x1024 : Shape := ⟨3, ![8, 2048, 1024]⟩
abbrev S16384 : Shape := ⟨1, ![16384]⟩
abbrev S8x2048x2048 : Shape := ⟨3, ![8, 2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S16384, .i32⟩
  | .hbm, ⟨5, _⟩ => ⟨S8x2048x1024, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S8x2048x1024, .f32⟩
  | .hbm, ⟨19, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  shapeCasts_S16384x1024_S8x2048x1024 : S16384x1024.ShapeCasts S8x2048x1024
  bcast_S_S8x2048x2048 : S_.BroadcastsInDim S8x2048x2048 (![] : Fin 0 → Fin S8x2048x2048.rank)
  shapeCasts_S8x2048x1024_S16384x1024 : S8x2048x1024.ShapeCasts S16384x1024
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.LayerSpec.lean ====
/-
  The layer both programs compute, as one function of the four float arrays, index by index.

  The tokens (rows of `x`, 16384 of them, 1024 features each) arrive sorted by expert in eight equal groups,
  so row `r` belongs to expert `r / 2048`. Each expert `e` owns three matrices `w1 e`, `w2 e`, `w3 e` of
  2048 rows and 1024 columns. For a token row `r` of expert `e`:

    * its two projections onto hidden feature `f` are the row's inner products with row `f` of `w1 e` and of `w3 e`;
    * the first is passed through `z ↦ z · σ(z)`, `σ` the logistic function, and multiplied by the second;
    * output column `h` is the sum over the 2048 hidden features of that product times `w2 e` at `(f, h)`.

  Everything is stated over the extended reals. No law of arithmetic is needed to join the two programs: each
  spells these same sums and products in this same order, so only indices have to be matched.
-/
import Idealize.ShloMosaic.PureOps.Ideal
import Idealize.ShloMosaic.PureOps.IdealRules
import Idealize.ShloMosaic.Lib.ValueIdx

noncomputable section

namespace Cert.GroupedSwiglu

open Idealize.ShloMosaic Idealize.ShloMosaic.ValueIdx

/-- The token array's shape: 16384 rows of 1024 features. -/
abbrev Tokens : Shape := ⟨2, ![16384, 1024]⟩
/-- The shape of each stacked weight array: 8 experts, 2048 hidden features, 1024 model features. -/
abbrev Weights : Shape := ⟨3, ![8, 2048, 1024]⟩

/-- The expert that owns token row `r`: the rows come in eight consecutive groups of 2048. -/
def expertOf (r : Fin 16384) : Fin 8 := ⟨r.val / 2048, by have := r.isLt; omega⟩

/-- Token row `r` against row `f` of expert `e`'s matrix in `w`: the inner product over the 1024 model features. -/
def proj (x : FVec Ideal Tokens .f32) (w : FVec Ideal Weights .f32) (e : Fin 8) (r : Fin 16384) (f : Fin 2048) : EReal :=
  ∑ k : Fin 1024, x (ix2 r k) * w (ix3 e f k)

/-- `z · σ(z)` with `σ(z) = 1 / (1 + e^(-z))`, the corners of the extended reals as the ideal instance fixes them. -/
def swish (z : EReal) : EReal := z * Ideal.logistic z

/-- The gated hidden activation of token row `r` at hidden feature `f` under expert `e`. -/
def gated (x : FVec Ideal Tokens .f32) (w1 w3 : FVec Ideal Weights .f32) (e : Fin 8) (r : Fin 16384) (f : Fin 2048) : EReal :=
  swish (proj x w1 e r f) * proj x w3 e r f

/-- The layer's output: row `r`, column `h` is the gated activations of row `r` under its own expert, summed against
    column `h` of that expert's `w2`. -/
def layer (x : FVec Ideal Tokens .f32) (w1 w2 w3 : FVec Ideal Weights .f32) : FVec Ideal Tokens .f32 := fun i =>
  ∑ f : Fin 2048, gated x w1 w3 (expertOf (i 0)) (i 0) f * w2 (ix3 (expertOf (i 0)) f (i 1))

/-- The float word `0x3F800000` denotes the real number one. -/
theorem one_f32 : Ideal.ofBits .f32 0x3F800000#32 = 1 := IdealRules.sign_bit.ideal_onePat .f32

/-- The accelerator's one-operation logistic, multiplied by its argument, is `swish`. -/
theorem swish_of_logistic (z : Ideal .f32) : FloatOps.mulf z (FloatOps.logistic z) = swish z := rfl

/-- The same function as the host spells it: negate, exponentiate, add one, divide one by the sum, multiply by the
    argument. The logistic function is by definition that quotient, and the two literals are the number one. -/
theorem swish_of_quotient (z : Ideal .f32) :
    FloatOps.mulf z (FloatOps.hostDivf (FloatOps.ofBits (F := Ideal) .f32 0x3F800000#32)
      (FloatOps.addf (FloatOps.ofBits (F := Ideal) .f32 0x3F800000#32) (FloatOps.hostUnary .exp (FloatOps.hostNegf z)))) = swish z := by
  show z * Ideal.div (Ideal.ofBits .f32 0x3F800000#32) (Ideal.ofBits .f32 0x3F800000#32 + Ideal.exp (-z)) = z * Ideal.logistic z
  rw [one_f32]
  rfl

end Cert.GroupedSwiglu

end
-- ==== Proof.HostIsLayer.lean ====
/-
  The host program computes the layer. Read one operation at a time: it regroups the token rows as
  (expert, row within the group, feature), so entry `(e, t, k)` of the regrouped array is token row `e · 2048 + t`;
  its two batched products are the projections of that row onto expert `e`'s `w1` and `w3`; its expansion of the
  logistic gate is `swish`; its last batched product sums the gated activations against `w2 e`; and the final
  regrouping sends `(e, t, h)` back to row `e · 2048 + t`, column `h`. Only indices are matched: row `r` is
  `(r / 2048) · 2048 + r % 2048`.
-/
import proofs.«176020_j66692252172319_1_alg».proof.Proof.Gen.ReferenceIdeal.Read
import proofs.«176020_j66692252172319_1_alg».proof.Proof.LayerSpec

noncomputable section

namespace Cert.GroupedSwiglu.Host

open Cert.ReferenceIdeal Cert.ReferenceIdeal.Read Idealize.ShloMosaic Idealize.ShloMosaic.ValueIdx Cert.GroupedSwiglu

/-- The regrouped tokens at (expert `e`, row `t` of the group, feature `k`) are token row `e · 2048 + t` at feature `k`. -/
theorem regrouped (x : FVec Ideal S16384x1024 .f32) (e : Fin 8) (t : Fin 2048) (k : Fin 1024) (r : Fin 16384)
    (hr : r.val = e.val * 2048 + t.val) : val_main_v0 (F := Ideal) x (ix3 e t k) = x (ix2 r k) := by
  rw [val_main_v0_apply]
  congr 1
  funext a
  apply Fin.ext
  have he := e.isLt; have ht := t.isLt; have hk := k.isLt
  match a with
  | ⟨0, _⟩ => show ((e.val * 2048 + t.val) * 1024 + k.val) / 1024 = r.val; omega
  | ⟨1, _⟩ => show ((e.val * 2048 + t.val) * 1024 + k.val) % 1024 = k.val; omega

/-- The first batched product at `(e, t, f)` is the projection of row `e · 2048 + t` onto row `f` of `w1 e`. -/
theorem first_product (x : FVec Ideal S16384x1024 .f32) (w1 : FVec Ideal S8x2048x1024 .f32) (e : Fin 8) (t f : Fin 2048)
    (r : Fin 16384) (hr : r.val = e.val * 2048 + t.val) : val_main_v1 (F := Ideal) x w1 (ix3 e t f) = proj x w1 e r f := by
  rw [val_main_v1_apply]
  unfold proj
  refine Finset.sum_congr rfl fun k _ => ?_
  have hl : lidx_main_v1 (ix3 e t f) k = ix3 e t k := funext fun a => by
    match a with
    | ⟨0, _⟩ => rfl
    | ⟨1, _⟩ => rfl
    | ⟨2, _⟩ => rfl
  have hw : ridx_main_v1 (ix3 e t f) k = ix3 e f k := funext fun a => by
    match a with
    | ⟨0, _⟩ => rfl
    | ⟨1, _⟩ => rfl
    | ⟨2, _⟩ => rfl
  rw [hl, hw, regrouped x e t k r hr]

/-- The second batched product, the same against `w3 e`. -/
theorem second_product (x : FVec Ideal S16384x1024 .f32) (w3 : FVec Ideal S8x2048x1024 .f32) (e : Fin 8) (t f : Fin 2048)
    (r : Fin 16384) (hr : r.val = e.val * 2048 + t.val) : val_main_v2 (F := Ideal) x w3 (ix3 e t f) = proj x w3 e r f := by
  rw [val_main_v2_apply]
  unfold proj
  refine Finset.sum_congr rfl fun k _ => ?_
  have hl : lidx_main_v2 (ix3 e t f) k = ix3 e t k := funext fun a => by
    match a with
    | ⟨0, _⟩ => rfl
    | ⟨1, _⟩ => rfl
    | ⟨2, _⟩ => rfl
  have hw : ridx_main_v2 (ix3 e t f) k = ix3 e f k := funext fun a => by
    match a with
    | ⟨0, _⟩ => rfl
    | ⟨1, _⟩ => rfl
    | ⟨2, _⟩ => rfl
  rw [hl, hw, regrouped x e t k r hr]

/-- The gate's expansion applied to the first product, times the second: the gated activation. -/
theorem gated_product (x : FVec Ideal S16384x1024 .f32) (w1 w3 : FVec Ideal S8x2048x1024 .f32) (e : Fin 8) (t f : Fin 2048)
    (r : Fin 16384) (hr : r.val = e.val * 2048 + t.val) : val_main_v4 (F := Ideal) x w1 w3 (ix3 e t f) = gated x w1 w3 e r f := by
  rw [val_main_v4_apply, val_main_v3_apply, val_main_call0_v5_apply, val_main_call0_v4_apply, val_main_call0_cst_0_apply,
    val_main_call0_v3_apply, val_main_call0_v2_apply, val_main_call0_cst_apply, val_main_call0_v1_apply,
    val_main_call0_v0_apply, first_product x w1 e t f r hr, second_product x w3 e t f r hr]
  unfold gated
  rw [← swish_of_quotient]
  rfl

/-- THE HOST PROGRAM'S RESULT IS THE LAYER. -/
theorem result_eq (x : FVec Ideal S16384x1024 .f32) (w1 w2 w3 : FVec Ideal S8x2048x1024 .f32) :
    val_main_v6 (F := Ideal) x w1 w2 w3 = layer x w1 w2 w3 := by
  funext i
  have h0 : (i 0).val < 16384 := (i 0).isLt
  have h1 : (i 1).val < 1024 := (i 1).isLt
  rw [val_main_v6_apply, val_main_v5_apply]
  unfold layer
  refine Finset.sum_congr rfl fun f _ => ?_
  have hi : idx_main_v6 i = ix3 (expertOf (i 0)) (⟨(i 0).val % 2048, Nat.mod_lt _ (by decide)⟩ : Fin 2048) (i 1) :=
    funext fun a => Fin.ext (by
      match a with
      | ⟨0, _⟩ => show ((i 0).val * 1024 + (i 1).val) / 2097152 = (i 0).val / 2048; omega
      | ⟨1, _⟩ => show ((i 0).val * 1024 + (i 1).val) / 1024 % 2048 = (i 0).val % 2048; omega
      | ⟨2, _⟩ => show ((i 0).val * 1024 + (i 1).val) % 1024 = (i 1).val; omega)
  rw [hi]
  have hl : lidx_main_v5 (ix3 (expertOf (i 0)) (⟨(i 0).val % 2048, Nat.mod_lt _ (by decide)⟩ : Fin 2048) (i 1)) f
      = ix3 (expertOf (i 0)) (⟨(i 0).val % 2048, Nat.mod_lt _ (by decide)⟩ : Fin 2048) f := funext fun a => by
    match a with
    | ⟨0, _⟩ => rfl
    | ⟨1, _⟩ => rfl
    | ⟨2, _⟩ => rfl
  have hw : ridx_main_v5 (ix3 (expertOf (i 0)) (⟨(i 0).val % 2048, Nat.mod_lt _ (by decide)⟩ : Fin 2048) (i 1)) f
      = ix3 (expertOf (i 0)) f (i 1) := funext fun a => by
    match a with
    | ⟨0, _⟩ => rfl
    | ⟨1, _⟩ => rfl
    | ⟨2, _⟩ => rfl
  rw [hl, hw, gated_product x w1 w3 (expertOf (i 0)) ⟨(i 0).val % 2048, Nat.mod_lt _ (by decide)⟩ f (i 0)
    (by show (i 0).val = (i 0).val / 2048 * 2048 + (i 0).val % 2048; omega)]
  rfl

end Cert.GroupedSwiglu.Host

end
-- ==== Proof.BodyOnBlocks.lean ====
/-
  One call of the kernel body, on blocks. The body is given a block `a` of 256 token rows and one expert's slab of each
  weight array (`b1`, `b2`, `b3`: shape 1 × 2048 × 1024), and stores one 256 × 1024 block. Read at row `p`, column `q`:

    * each of its first two matrix products contracts the 1024 model features of row `p` of `a` against row `f` of a slab
      (both operands carry the contracted axis last), giving the two projections at `(p, f)`;
    * the logistic gate times its argument is `swish`, and the product with the second projection is the gated activation;
    * the third matrix product contracts the 2048 hidden features against column `q` of the `b2` slab.

  The narrowing of the operands to sixteen bits is the identity on extended reals, a matrix product into a zero
  accumulator is the plain sum, and dropping a slab's unit axis reads entry `(f, k)` at `(0, f, k)`.
-/
import proofs.«176020_j66692252172319_1_alg».proof.Proof.Gen.KernelIdeal.Skeleton
import proofs.«176020_j66692252172319_1_alg».proof.Proof.LayerSpec
import Idealize.ShloMosaic.Lib.ValueIdx
import Idealize.ShloMosaic.Lib.Pipeline.Value
import Idealize.ShloMosaic.PureOps.Ideal.Laws

noncomputable section

namespace Cert.GroupedSwiglu.Body

open Cert.KernelIdeal Cert.KernelIdeal.Gen Idealize.ShloMosaic Idealize.ShloMosaic.ValueIdx Cert.GroupedSwiglu

/-! ## The projections' matrix product: rows of the left operand against rows of the right -/

theorem proj_lhs_0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem proj_lhs_1 (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
theorem proj_rhs_0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem proj_rhs_1 (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

/-- Into a zero accumulator, entry `(p, f)` of the product is the inner product of row `p` of the left operand and row `f`
    of the right, over the 1024 model features. -/
theorem proj_product {φ₁ φ₂ : FTy} (l : FVec Ideal S256x1024 φ₁) (r : FVec Ideal S2048x1024 φ₂) (p : Fin 256) (f : Fin 2048) :
    matmul dot_S256x1024_S2048x1024_S256x2048_1_1_0_0_n_n none l r (constant S256x2048 .f32 0x00000000#32) (ix2 p f)
      = ∑ k : Fin 1024, l (ix2 p k) * r (ix2 f k) := by
  refine (Ideal.matmul_constant_zero_apply dot_S256x1024_S2048x1024_S256x2048_1_1_0_0_n_n none l r (ix2 p f)).trans ?_
  rw [← Equiv.sum_comp (ValueIdx.contrEquiv1 dot_S256x1024_S2048x1024_S256x2048_1_1_0_0_n_n 1024 rfl rfl).symm]
  refine Finset.sum_congr rfl fun k _ => ?_
  have hk := ValueIdx.contrEquiv1_symm_val dot_S256x1024_S2048x1024_S256x2048_1_1_0_0_n_n 1024 rfl rfl k
  have el : dot_S256x1024_S2048x1024_S256x2048_1_1_0_0_n_n.lhsIdx (ix2 p f) ((ValueIdx.contrEquiv1 dot_S256x1024_S2048x1024_S256x2048_1_1_0_0_n_n 1024 rfl rfl).symm k) = ix2 p k := funext fun a => Fin.ext (by
    match a with
    | ⟨0, _⟩ => exact proj_lhs_0 _ _
    | ⟨1, _⟩ => exact (proj_lhs_1 _ _).trans hk)
  have er : dot_S256x1024_S2048x1024_S256x2048_1_1_0_0_n_n.rhsIdx (ix2 p f) ((ValueIdx.contrEquiv1 dot_S256x1024_S2048x1024_S256x2048_1_1_0_0_n_n 1024 rfl rfl).symm k) = ix2 f k := funext fun a => Fin.ext (by
    match a with
    | ⟨0, _⟩ => exact proj_rhs_0 _ _
    | ⟨1, _⟩ => exact (proj_rhs_1 _ _).trans hk)
  rw [el, er]

/-! ## The output's matrix product: rows of the left operand against columns of the right -/

theorem out_lhs_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem out_lhs_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem out_rhs_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem out_rhs_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- Into a zero accumulator, entry `(p, q)` of the product is the sum over the 2048 hidden features of the left operand's
    row `p` times the right operand's column `q`. -/
theorem out_product {φ₁ φ₂ : FTy} (l : FVec Ideal S256x2048 φ₁) (r : FVec Ideal S2048x1024 φ₂) (p : Fin 256) (q : Fin 1024) :
    matmul dot_S256x2048_S2048x1024_S256x1024_1_0_0_1_n_n none l r (constant S256x1024 .f32 0x00000000#32) (ix2 p q)
      = ∑ f : Fin 2048, l (ix2 p f) * r (ix2 f q) := by
  refine (Ideal.matmul_constant_zero_apply dot_S256x2048_S2048x1024_S256x1024_1_0_0_1_n_n none l r (ix2 p q)).trans ?_
  rw [← Equiv.sum_comp (ValueIdx.contrEquiv1 dot_S256x2048_S2048x1024_S256x1024_1_0_0_1_n_n 2048 rfl rfl).symm]
  refine Finset.sum_congr rfl fun f _ => ?_
  have hf := ValueIdx.contrEquiv1_symm_val dot_S256x2048_S2048x1024_S256x1024_1_0_0_1_n_n 2048 rfl rfl f
  have el : dot_S256x2048_S2048x1024_S256x1024_1_0_0_1_n_n.lhsIdx (ix2 p q) ((ValueIdx.contrEquiv1 dot_S256x2048_S2048x1024_S256x1024_1_0_0_1_n_n 2048 rfl rfl).symm f) = ix2 p f := funext fun a => Fin.ext (by
    match a with
    | ⟨0, _⟩ => exact out_lhs_0 _ _
    | ⟨1, _⟩ => exact (out_lhs_1 _ _).trans hf)
  have er : dot_S256x2048_S2048x1024_S256x1024_1_0_0_1_n_n.rhsIdx (ix2 p q) ((ValueIdx.contrEquiv1 dot_S256x2048_S2048x1024_S256x1024_1_0_0_1_n_n 2048 rfl rfl).symm f) = ix2 f q := funext fun a => Fin.ext (by
    match a with
    | ⟨0, _⟩ => exact (out_rhs_0 _ _).trans hf
    | ⟨1, _⟩ => exact out_rhs_1 _ _)
  rw [el, er]

/-! ## A slab with its unit axis dropped -/

/-- Entry `(f, k)` of a 1 × 2048 × 1024 slab reshaped to 2048 × 1024 is the slab's entry `(0, f, k)`. -/
theorem slab_apply {α : Type} (v : S1x2048x1024.Idx → α) (h : S1x2048x1024.ShapeCasts S2048x1024) (f : Fin 2048) (k : Fin 1024) :
    shapeCast S2048x1024 v h (ix2 f k) = v (ix3 0 f k) :=
  shapeCast_apply v h (ix2 f k) (ix3 0 f k)
    (by rewrite [Shape.rowMajor_val_three, Shape.rowMajor_val_two]; show ((0 : Nat) * 2048 + f.val) * 1024 + k.val = f.val * 1024 + k.val; omega)

/-- The gate read at an index is the logistic function of the entry there. -/
theorem gate_apply {s : Shape} (v : FVec Ideal s .f32) (i : s.Idx) : logistic v i = Ideal.logistic (v i) := rfl

/-! ## The body's stored block -/

/-- What one call stores, as a function of its four blocks: the layer's formula with the block's rows for token rows and
    the slabs' one expert for the expert. -/
def onBlocks (a : FVec Ideal S256x1024 .f32) (b1 b2 b3 : FVec Ideal S1x2048x1024 .f32) : FVec Ideal S256x1024 .f32 := fun j =>
  ∑ f : Fin 2048, swish (∑ k : Fin 1024, a (ix2 (j 0) k) * b1 (ix3 0 f k)) * (∑ k : Fin 1024, a (ix2 (j 0) k) * b3 (ix3 0 f k))
    * b2 (ix3 0 f (j 1))

/-- THE BODY'S PAYLOAD is `onBlocks` of its loads (in the payload's own order: tokens, first slab, third slab, second slab). -/
theorem payload_eq (a : FVec Ideal S256x1024 .f32) (b1 b3 b2 : FVec Ideal S1x2048x1024 .f32) :
    k0_pay1 (F := Ideal) a b1 b3 b2 = onBlocks a b1 b2 b3 := by
  funext j
  obtain ⟨p, q, rfl⟩ : ∃ (p : Fin 256) (q : Fin 1024), j = ix2 p q := ⟨j 0, j 1, eq_ix2 j⟩
  unfold k0_pay1 onBlocks
  rw [out_product]
  refine Finset.sum_congr rfl fun f _ => ?_
  rw [truncf_apply, truncf_apply, slab_apply, mulf_apply, mulf_apply, gate_apply]
  simp only [proj_product, truncf_apply, slab_apply]
  rfl

end Cert.GroupedSwiglu.Body

end
-- ==== Proof.BlockIsLayer.lean ====
/-
  Blocks that are the right rows and the right expert's slabs give the layer's entries. The grid has 64 points; point
  `n` is handed token rows `n · 256 … n · 256 + 255` and, of each weight array, the slab of expert `n / 8`. Every one of
  those rows lies in group `n / 8` of the sorted tokens — `(n · 256 + p) / 2048 = n / 8` for `p < 256` — so the expert the
  body was handed is the expert the layer uses for each of its rows, and the body's block, entry by entry, is the
  layer's.
-/
import proofs.«176020_j66692252172319_1_alg».proof.Proof.BodyOnBlocks

noncomputable section

namespace Cert.GroupedSwiglu.Body

open Cert.KernelIdeal Idealize.ShloMosaic Idealize.ShloMosaic.ValueIdx Cert.GroupedSwiglu

/-- Row `p` of the block of point `n` is token row `n · 256 + p`. -/
def rowOf (n : Nat) (hn : n < 64) (p : Fin 256) : Fin 16384 := ⟨n * 256 + p.val, by have := p.isLt; omega⟩

/-- The expert whose slabs point `n` is handed. -/
def expertAt (n : Nat) (hn : n < 64) : Fin 8 := ⟨n / 8, by omega⟩

/-- Every row of point `n`'s block belongs to the expert whose slabs the point is handed. -/
theorem expertOf_rowOf (n : Nat) (hn : n < 64) (p : Fin 256) : expertOf (rowOf n hn p) = expertAt n hn :=
  Fin.ext (by show (n * 256 + p.val) / 2048 = n / 8; have := p.isLt; omega)

/-- THE BLOCK IS THE LAYER'S: if `a` holds the rows of point `n` and the three slabs are expert `n / 8`'s, the body's
    block at `(p, q)` is the layer at row `n · 256 + p`, column `q`. -/
theorem block_is_layer (x : FVec Ideal S16384x1024 .f32) (w1 w2 w3 : FVec Ideal S8x2048x1024 .f32)
    (a : FVec Ideal S256x1024 .f32) (b1 b2 b3 : FVec Ideal S1x2048x1024 .f32) (n : Nat) (hn : n < 64)
    (ha : ∀ (p : Fin 256) (k : Fin 1024), a (ix2 p k) = x (ix2 (rowOf n hn p) k))
    (hb1 : ∀ (f : Fin 2048) (k : Fin 1024), b1 (ix3 0 f k) = w1 (ix3 (expertAt n hn) f k))
    (hb2 : ∀ (f : Fin 2048) (k : Fin 1024), b2 (ix3 0 f k) = w2 (ix3 (expertAt n hn) f k))
    (hb3 : ∀ (f : Fin 2048) (k : Fin 1024), b3 (ix3 0 f k) = w3 (ix3 (expertAt n hn) f k))
    (p : Fin 256) (q : Fin 1024) :
    onBlocks a b1 b2 b3 (ix2 p q) = layer x w1 w2 w3 (ix2 (rowOf n hn p) q) := by
  show (∑ f : Fin 2048, swish (∑ k : Fin 1024, a (ix2 p k) * b1 (ix3 0 f k)) * (∑ k : Fin 1024, a (ix2 p k) * b3 (ix3 0 f k)) * b2 (ix3 0 f q))
      = ∑ f : Fin 2048, gated x w1 w3 (expertOf (rowOf n hn p)) (rowOf n hn p) f * w2 (ix3 (expertOf (rowOf n hn p)) f q)
  rw [expertOf_rowOf]
  unfold gated proj
  simp only [ha, hb1, hb2, hb3]

end Cert.GroupedSwiglu.Body

end
-- ==== Proof.ArrayIsLayer.lean ====
/-
  The kernel's result array is the layer of its argument arrays. The grid's 64 points are numbered expert-major, so
  point `t` fetches and writes back token-row block `t` (rows `256 t … 256 t + 255`, all 1024 columns) and fetches the
  slab of expert `t / 8` of each weight array. Its body therefore stores the layer's entries for those rows
  (the previous two modules), the write-back places them at rows `256 t + p`, and the 64 row blocks tile the array:
  row `r` lies in block `r / 256`.
-/
import proofs.«176020_j66692252172319_1_alg».proof.Proof.Gen.KernelIdeal.Value
import proofs.«176020_j66692252172319_1_alg».proof.Proof.BlockIsLayer
import Idealize.ShloMosaic.Lib.Pipeline.Value

noncomputable section

namespace Cert.GroupedSwiglu.Kernel

open Cert.KernelIdeal Cert.KernelIdeal.Gen Idealize.ShloMosaic Idealize.ShloMosaic.TcCoe Idealize.SL.Sem
open Idealize.ShloMosaic.ValueIdx Cert.GroupedSwiglu Cert.GroupedSwiglu.Body
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin3 : (![0, 0, 0] : Fin 3 → Nat) = fun _ => 0 := funext fun a => by fin_cases a <;> rfl

/-- The number of grid points. -/
theorem point_lt (t : Fin cfg0.N) : t.val < 64 :=
  Nat.lt_of_lt_of_eq t.isLt (show cfg0.N = 64 from N_0)

/-- The printed index maps, decided over the 64 points: the token and output windows are at row block `t`, column block 0;
    each weight window is at expert `t / 8`, at the origin of the other two axes. -/
theorem where_blocks : ∀ t : Fin cfg0.N,
      win0_0.index t (0 : Fin 2) = t.val ∧ win0_0.index t (1 : Fin 2) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

/-! ## What each input block holds -/

/-- The token block of point `t`, at row `p`, is token row `256 t + p`. -/
theorem tokens_block (c : Dev nD) (t : Fin cfg0.N) (p : Fin 256) (k : Fin 1024) :
    (iblk m c 0 t : FVec Ideal S256x1024 .f32) (ix2 p k)
      = (V m c main_arg0 : FVec Ideal S16384x1024 .f32) (ix2 (rowOf t.val (point_lt t) p) k) := by
  obtain ⟨e0, e1, -⟩ := where_blocks t
  show V m c main_arg0 (((cfg0.win 0).blk t).view.emb (ix2 p k)) = V m c main_arg0 (ix2 (rowOf t.val (point_lt t) p) k)
  congr 1
  funext a
  apply Fin.ext
  match a with
  | ⟨0, _⟩ => show win0_0.index t (0 : Fin 2) * 256 + 1 * p.val = t.val * 256 + p.val; rw [e0]; omega
  | ⟨1, _⟩ => show win0_0.index t (1 : Fin 2) * 1024 + 1 * k.val = k.val; rw [e1]; omega

/-- The first weight slab of point `t` is expert `t / 8`'s. -/
theorem slab_w1 (c : Dev nD) (t : Fin cfg0.N) (f : Fin 2048) (k : Fin 1024) :
    (iblk m c 1 t : FVec Ideal S1x2048x1024 .f32) (ix3 0 f k)
      = (V m c main_arg1 : FVec Ideal S8x2048x1024 .f32) (ix3 (expertAt t.val (point_lt t)) f k) := by
  obtain ⟨-, -, e0, e1, e2, -⟩ := where_blocks t
  show V m c main_arg1 (((cfg0.win 1).blk t).view.emb (ix3 0 f k)) = V m c main_arg1 (ix3 (expertAt t.val (point_lt t)) f k)
  congr 1
  funext a
  apply Fin.ext
  match a with
  | ⟨0, _⟩ => show win0_1.index t (0 : Fin 3) * 1 + 1 * ((0 : Fin 1) : Nat) = t.val / 8; rw [e0]; simp
  | ⟨1, _⟩ => show win0_1.index t (1 : Fin 3) * 2048 + 1 * f.val = f.val; rw [e1]; omega
  | ⟨2, _⟩ => show win0_1.index t (2 : Fin 3) * 1024 + 1 * k.val = k.val; rw [e2]; omega

/-- The second weight slab of point `t` is expert `t / 8`'s. -/
theorem slab_w2 (c : Dev nD) (t : Fin cfg0.N) (f : Fin 2048) (k : Fin 1024) :
    (iblk m c 2 t : FVec Ideal S1x2048x1024 .f32) (ix3 0 f k)
      = (V m c main_arg2 : FVec Ideal S8x2048x1024 .f32) (ix3 (expertAt t.val (point_lt t)) f k) := by
  obtain ⟨-, -, -, -, -, e0, e1, e2, -⟩ := where_blocks t
  show V m c main_arg2 (((cfg0.win 2).blk t).view.emb (ix3 0 f k)) = V m c main_arg2 (ix3 (expertAt t.val (point_lt t)) f k)
  congr 1
  funext a
  apply Fin.ext
  match a with
  | ⟨0, _⟩ => show win0_2.index t (0 : Fin 3) * 1 + 1 * ((0 : Fin 1) : Nat) = t.val / 8; rw [e0]; simp
  | ⟨1, _⟩ => show win0_2.index t (1 : Fin 3) * 2048 + 1 * f.val = f.val; rw [e1]; omega
  | ⟨2, _⟩ => show win0_2.index t (2 : Fin 3) * 1024 + 1 * k.val = k.val; rw [e2]; omega

/-- The third weight slab of point `t` is expert `t / 8`'s. -/
theorem slab_w3 (c : Dev nD) (t : Fin cfg0.N) (f : Fin 2048) (k : Fin 1024) :
    (iblk m c 3 t : FVec Ideal S1x2048x1024 .f32) (ix3 0 f k)
      = (V m c main_arg3 : FVec Ideal S8x2048x1024 .f32) (ix3 (expertAt t.val (point_lt t)) f k) := by
  obtain ⟨-, -, -, -, -, -, -, -, e0, e1, e2, -⟩ := where_blocks t
  show V m c main_arg3 (((cfg0.win 3).blk t).view.emb (ix3 0 f k)) = V m c main_arg3 (ix3 (expertAt t.val (point_lt t)) f k)
  congr 1
  funext a
  apply Fin.ext
  match a with
  | ⟨0, _⟩ => show win0_3.index t (0 : Fin 3) * 1 + 1 * ((0 : Fin 1) : Nat) = t.val / 8; rw [e0]; simp
  | ⟨1, _⟩ => show win0_3.index t (1 : Fin 3) * 2048 + 1 * f.val = f.val; rw [e1]; omega
  | ⟨2, _⟩ => show win0_3.index t (2 : Fin 3) * 1024 + 1 * k.val = k.val; rw [e2]; omega

/-! ## What each point writes back -/

/-- The layer of the argument arrays as the region finds them. -/
abbrev result (c : Dev nD) : FVec Ideal S16384x1024 .f32 :=
  layer (V m c main_arg0) (V m c main_arg1) (V m c main_arg2) (V m c main_arg3)

/-- The body's payload on point `t`'s blocks is the layer read through the output window's block at `t`. -/
theorem stored_block (c : Dev nD) (t : Fin cfg0.N) :
    (k0_pay1 (F := Ideal) (iblk m c 0 t) (iblk m c 1 t) (iblk m c 3 t) (iblk m c 2 t) : FVec Ideal S256x1024 .f32)
      = fun j : S256x1024.Idx => result m c (((cfg0.win 4).blk t).view.emb j) := by
  obtain ⟨-, -, -, -, -, -, -, -, -, -, -, e0, e1⟩ := where_blocks t
  funext j
  obtain ⟨p, q, rfl⟩ : ∃ (p : Fin 256) (q : Fin 1024), j = ix2 p q := ⟨j 0, j 1, eq_ix2 j⟩
  refine (congrFun (payload_eq (iblk m c 0 t) (iblk m c 1 t) (iblk m c 3 t) (iblk m c 2 t)) (ix2 p q)).trans ?_
  refine (block_is_layer (V m c main_arg0) (V m c main_arg1) (V m c main_arg2) (V m c main_arg3)
    (iblk m c 0 t) (iblk m c 1 t) (iblk m c 2 t) (iblk m c 3 t) t.val (point_lt t)
    (tokens_block m c t) (slab_w1 m c t) (slab_w2 m c t) (slab_w3 m c t) p q).trans ?_
  show result m c (ix2 (rowOf t.val (point_lt t) p) q) = result m c (((cfg0.win 4).blk t).view.emb (ix2 p q))
  congr 1
  funext a
  apply Fin.ext
  match a with
  | ⟨0, _⟩ => show t.val * 256 + p.val = win0_4.index t (0 : Fin 2) * 256 + 1 * p.val; rw [e0]; omega
  | ⟨1, _⟩ => show q.val = win0_4.index t (1 : Fin 2) * 1024 + 1 * q.val; rw [e1]; omega

/-- WHAT POINT `t` WRITES BACK is block `t` of the layer. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero origin2]
  simp only [View.ld_unit_zero (S := S256x1024) origin2, View.ld_unit_zero (S := S1x2048x1024) origin3]
  exact stored_block m c t

/-! ## The row blocks tile the array -/

/-- An index of the array is in point `t`'s block iff each coordinate is in the block's range on its axis. -/
theorem mem_block (t : Fin cfg0.N) (i : S16384x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v0).slice (win0_4.rect t)).set ↔ _
  rw [View.set_slice_whole, Rect.mem_set_unit]
  exact Iff.rfl

/-- Row `r` is in the block of point `r / 256`, which writes back. -/
theorem every_index_covered (i : S16384x1024.Idx) :
    ∃ t : Fin cfg0.N, (cfg0.win 4).flush t = true ∧ i ∈ ((cfg0.win 4).blk t).view.set := by
  have h0 : (i 0).val < 16384 := (i 0).isLt
  have h1 : (i 1).val < 1024 := (i 1).isLt
  obtain ⟨t, ht⟩ : ∃ t : Fin cfg0.N, t.val = (i 0).val / 256 :=
    ⟨⟨(i 0).val / 256, by rw [show cfg0.N = 64 from N_0]; omega⟩, rfl⟩
  obtain ⟨-, -, -, -, -, -, -, -, -, -, -, e0, e1⟩ := where_blocks t
  refine ⟨t, flush0_4 t, ?_⟩
  rw [mem_block]
  intro a
  match a with
  | ⟨0, _⟩ => show win0_4.index t (0 : Fin 2) * 256 ≤ (i 0).val ∧ (i 0).val < win0_4.index t (0 : Fin 2) * 256 + 256; rw [e0, ht]; omega
  | ⟨1, _⟩ => show win0_4.index t (1 : Fin 2) * 1024 ≤ (i 1).val ∧ (i 1).val < win0_4.index t (1 : Fin 2) * 1024 + 1024; rw [e1]; omega

/-- THE ARRAY after the run is the layer of the argument arrays. -/
theorem final (c : Dev nD) : (dats m 0 c).arrAt 4 cfg0.N = result m c :=
  (dats m 0 c).arrAt_eq_of_cover 4 (result m c) (fun t _ => flushed_eq m c t) every_index_covered

/-! ## The run, read -/

/-- Every weakly fair execution of the kernel program terminates with the result array at the layer of the argument
    arrays and the arguments unchanged. -/
theorem run : θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.GroupedSwiglu.Kernel

end
-- ==== Proof.lean ====
/-
  A grouped gated feed-forward layer, computed two ways, is one function over the extended reals.

  The tokens are 16384 rows of 1024 features, sorted by expert in eight equal groups of 2048 rows; each expert `e` has
  three 2048 × 1024 matrices. For token row `r` of expert `e = r / 2048`, the output at column `h` is

      Σ_f  swish(⟨x_r, w1[e, f, ·]⟩) · ⟨x_r, w3[e, f, ·]⟩ · w2[e, f, h],      swish(z) = z · 1 / (1 + e^(−z)),

  the sums over the 2048 hidden features `f` and, inside the inner products, over the 1024 model features
  (`GroupedSwiglu.layer`, Proof/LayerSpec.lean).

  The accelerator program walks a grid of 64 points; point `t` takes the block of 256 token rows `256 t …` and the slabs
  of expert `t / 8`, forms the two projections by matrix products contracting the last axis of both operands, applies
  the gate by its one-operation logistic, and contracts the hidden features against the `w2` slab; every row of the
  block belongs to expert `t / 8`, and the 64 row blocks tile the output (Proof/BodyOnBlocks.lean,
  Proof/BlockIsLayer.lean, Proof/ArrayIsLayer.lean). Narrowing the operands to sixteen bits is the identity on the
  extended reals. The host program regroups the rows as (expert, row in group), takes the same products batched over
  the expert, spells the gate as negate, exponentiate, add one, divide one by the sum — the logistic function's own
  definition — and regroups back (Proof/HostIsLayer.lean). Both spell the same sums and products in the same order, so
  the two results agree entry by entry with no law of arithmetic beyond matching indices, at infinite entries too; the
  finiteness of the inputs is not used.

  Each program terminates on every weakly fair execution and leaves its arguments unchanged: the accelerator programs
  by their frame certificates, the host program by its run read back. The idealization rewrote nothing, so there is
  nothing to preserve.
-/
import proofs.«176020_j66692252172319_1_alg».proof.Defs
import proofs.«176020_j66692252172319_1_alg».proof.Proof.Gen.Kernel
import proofs.«176020_j66692252172319_1_alg».proof.Proof.Gen.Kernel.Skeleton
import proofs.«176020_j66692252172319_1_alg».proof.Proof.Gen.Kernel.Launch
import proofs.«176020_j66692252172319_1_alg».proof.Proof.Gen.Kernel.Points
import proofs.«176020_j66692252172319_1_alg».proof.Proof.Gen.Kernel.Frame
import proofs.«176020_j66692252172319_1_alg».proof.Proof.Gen.KernelIdeal
import proofs.«176020_j66692252172319_1_alg».proof.Proof.Gen.KernelIdeal.Skeleton
import proofs.«176020_j66692252172319_1_alg».proof.Proof.Gen.KernelIdeal.Launch
import proofs.«176020_j66692252172319_1_alg».proof.Proof.Gen.KernelIdeal.Points
import proofs.«176020_j66692252172319_1_alg».proof.Proof.Gen.KernelIdeal.Frame
import proofs.«176020_j66692252172319_1_alg».proof.Proof.Gen.ReferenceIdeal
import proofs.«176020_j66692252172319_1_alg».proof.Proof.Gen.Pre_finite_inputs
import proofs.«176020_j66692252172319_1_alg».proof.Proof.Gen.KernelIdeal.Value
import proofs.«176020_j66692252172319_1_alg».proof.Proof.Gen.ReferenceIdeal.Run
import proofs.«176020_j66692252172319_1_alg».proof.Proof.Gen.ReferenceIdeal.Read
import proofs.«176020_j66692252172319_1_alg».proof.Proof.HostIsLayer
import proofs.«176020_j66692252172319_1_alg».proof.Proof.ArrayIsLayer
import Idealize.ShloMosaic.Adequacy
import Idealize.ShloMosaic.Init

noncomputable section

namespace Cert.Proof

open Idealize.ShloMosaic Idealize.SL.Sem

/-- The accelerator program as printed runs and leaves its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The host program runs and leaves its arguments unchanged: its run read back, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the layer of their (agreeing) argument arrays in the result array. -/
theorem algebraic : Cert.algebraic_KernelIdeal_ReferenceIdeal := by
  intro m ρ m' ρ' _ hagree
  refine ⟨_, Cert.GroupedSwiglu.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.GroupedSwiglu.Host.result_eq,
    (hagree c).1, (hagree c).2.1, (hagree c).2.2.1, (hagree c).2.2.2.1]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
